-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S32 : Shape := ⟨1, ![32]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) (main_arg1 : FVec F S32x2048x64 .f32) (main_arg2 : FVec F S32x2048x64 .f32) (main_arg3 : IVec S32 32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  main_v13
-- ==== Kernel.lean ====
abbrev S32x2048x64 : Shape := ⟨3, ![32, 2048, 64]⟩
abbrev S32 : Shape := ⟨1, ![32]⟩
abbrev S1x512x64 : Shape := ⟨3, ![1, 512, 64]⟩
abbrev S1x2048x64 : Shape := ⟨3, ![1, 2048, 64]⟩
abbrev S1 : Shape := ⟨1, ![1]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 8
  | .smem => 1
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | .local _ .smem, ⟨0, _⟩ => ⟨S32, .i32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  numel1_S1 : S1.numel = 1
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  iota_S512x2048_d1_w32 : S512x2048.Iotas .tc 32 [1]
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S32x2048x64.size a
  hwx0_3 : ∀ i : grid0.Coords, EltTy.bits .f32 = 32 ∨ (Rect.block (s := S32x2048x64) S1x512x64.size (cc0_transform_3 i) (hinb0_3 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev spec0_0 : Pipeline.WinSpec sig grid0.rank :=
  Pipeline.WinSpec.ofSpec (Memref.whole main_arg0) S1x512x64.size reads0_0 false false 2 stage0_0 sem0_0 nbuf0_0 hstage0_0

abbrev spec0_1 : Pipeline.WinSpec sig grid0.rank :=
  Pipeline.WinSpec.ofSpec (Memref.whole main_arg1) S1x2048x64.size reads0_1 false false 2 stage0_1 sem0_1 nbuf0_1 hstage0_1

abbrev spec0_2 : Pipeline.WinSpec sig grid0.rank :=
  Pipeline.WinSpec.ofSpec (Memref.whole main_arg2) S1x2048x64.size reads0_2 false false 2 stage0_2 sem0_2 nbuf0_2 hstage0_2

abbrev spec0_3 : Pipeline.WinSpec sig grid0.rank :=
  Pipeline.WinSpec.ofSpec (Memref.whole main_v0) S1x512x64.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S32x2048x64 : Shape := ⟨3, ![32, 2048, 64]⟩
abbrev S32 : Shape := ⟨1, ![32]⟩
abbrev S32x2048x2048 : Shape := ⟨3, ![32, 2048, 2048]⟩
abbrev S_ : Shape := ⟨0, ![]⟩
abbrev S2048 : Shape := ⟨1, ![2048]⟩
abbrev S1x1x2048 : Shape := ⟨3, ![1, 1, 2048]⟩
abbrev S32x1x1 : Shape := ⟨3, ![32, 1, 1]⟩
abbrev S32x1x2048 : Shape := ⟨3, ![32, 1, 2048]⟩
abbrev S32x2048 : Shape := ⟨2, ![32, 2048]⟩
abbrev S32x2048x1 : Shape := ⟨3, ![32, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32, .i32⟩
  | .hbm, ⟨4, _⟩ => ⟨S32x2048x2048, .f32⟩
  | .hbm, ⟨5, _⟩ => ⟨S_, .f32⟩
  | .hbm, ⟨6, _⟩ => ⟨S_, .f32⟩
  | .hbm, ⟨7, _⟩ => ⟨S32x2048x2048, .f32⟩
  | .hbm, ⟨8, _⟩ => ⟨S32x2048x2048, .f32⟩
  | .hbm, ⟨9, _⟩ => ⟨S2048, .i32⟩
  | .hbm, ⟨10, _⟩ => ⟨S1x1x2048, .i32⟩
  | .hbm, ⟨11, _⟩ => ⟨S32x1x1, .i32⟩
  | .hbm, ⟨12, _⟩ => ⟨S32x1x2048, .i32⟩
  | .hbm, ⟨13, _⟩ => ⟨S32x1x2048, .i32⟩
  | .hbm, ⟨14, _⟩ => ⟨S32x1x2048, .i1⟩
  | .hbm, ⟨15, _⟩ => ⟨S_, .f32⟩
  | .hbm, ⟨16, _⟩ => ⟨S_, .f32⟩
  | .hbm, ⟨17, _⟩ => ⟨S32x2048x2048, .i1⟩
  | .hbm, ⟨18, _⟩ => ⟨S32x2048x2048, .f32⟩
  | .hbm, ⟨19, _⟩ => ⟨S32x2048x2048, .f32⟩
  | .hbm, ⟨20, _⟩ => ⟨S_, .f32⟩
  | .hbm, ⟨21, _⟩ => ⟨S32x2048, .f32⟩
  | .hbm, ⟨22, _⟩ => ⟨S_, .f32⟩
  | .hbm, ⟨23, _⟩ => ⟨S32x2048, .f32⟩
  | .hbm, ⟨24, _⟩ => ⟨S32x2048, .f32⟩
  | .hbm, ⟨25, _⟩ => ⟨S32x2048x1, .f32⟩
  | .hbm, ⟨26, _⟩ => ⟨S32x2048x2048, .f32⟩
  | .hbm, ⟨27, _⟩ => ⟨S32x2048x2048, .f32⟩
  | .hbm, ⟨28, _⟩ => ⟨S32x2048x2048, .f32⟩
  | .hbm, ⟨29, _⟩ => ⟨S_, .f32⟩
  | .hbm, ⟨30, _⟩ => ⟨S32x2048, .f32⟩
  | .hbm, ⟨31, _⟩ => ⟨S32x2048x1, .f32⟩
  | .hbm, ⟨32, _⟩ => ⟨S32x2048x2048, .f32⟩
  | .hbm, ⟨33, _⟩ => ⟨S32x2048x2048, .f32⟩
  | .hbm, ⟨34, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  bcast_S2048_S1x1x2048_2 : S2048.BroadcastsInDim S1x1x2048 (![2] : Fin 1 → Fin S1x1x2048.rank)
  bcast_S32_S32x1x1_0 : S32.BroadcastsInDim S32x1x1 (![0] : Fin 1 → Fin S32x1x1.rank)
  bcast_S1x1x2048_S32x1x2048_0_1_2 : S1x1x2048.BroadcastsInDim S32x1x2048 (![0, 1, 2] : Fin 3 → Fin S32x1x2048.rank)
  bcast_S32x1x1_S32x1x2048_0_1_2 : S32x1x1.BroadcastsInDim S32x1x2048 (![0, 1, 2] : Fin 3 → Fin S32x1x2048.rank)
  bcast_S32x1x2048_S32x2048x2048_0_1_2 : S32x1x2048.BroadcastsInDim S32x2048x2048 (![0, 1, 2] : Fin 3 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.Attention.lean ====
/-
  Masked dot-product attention as ONE function of the four argument arrays, index by index, on the extended reals.

  For a batch `b`, a query row `r` and a key position `j`:
  * `dotQK`: the inner product over the 64 features of query row `(b, r)` with key row `(b, j)`;
  * `logit`: that product times 1/8 where the key position is below the batch's valid length (compared as signed
    32-bit words), and the fill value -10^6 elsewhere;
  * `rowMax`: the maximum of the row's 2048 logits, taken from -infinity;
  * `ex`, `den`, `prob`: the exponential of the logit less the row maximum, the row's sum of those, their quotient
    (the softmax of the row);
  * `outAt`: the softmax-weighted sum of the value rows of the batch.
  Both programs compute exactly this; they differ in how the factor 1/8 is spelled: the kernel multiplies by the
  literal 0.125, the reference divides by the square root of 64. `div_sqrt64` says these agree on every extended
  real, infinities included: the square root of 64 is 8, and dividing by a non-zero real is multiplying by its inverse.
-/
import Idealize.ShloMosaic.PureOps.Ideal
import Idealize.ShloMosaic.PureOps.Ideal.Laws
import Idealize.ShloMosaic.Lib.ValueIdx

noncomputable section

open scoped BigOperators

namespace Cert.Attention

open Idealize.ShloMosaic Idealize.ShloMosaic.ValueIdx

/-- A `[32, 2048, 64]` array of extended reals: batch, row, feature. -/
abbrev Arr : Type := (⟨3, ![32, 2048, 64]⟩ : Shape).Idx → EReal
/-- The valid lengths, one 32-bit word per batch. -/
abbrev Lens : Type := (⟨1, ![32]⟩ : Shape).Idx → BitVec 32

/-- The literal 0.125. -/
def scale : EReal := Ideal.ofBits .f32 0x3E000000#32
/-- The fill value -10^6 of a masked position. -/
def fill : EReal := Ideal.ofBits .f32 0xC9742400#32
/-- The literal -infinity a maximum starts from. -/
def negInf : EReal := Ideal.ofBits .f32 0xFF800000#32

/-- Query row `(b, r)` against key row `(b, j)`: the sum over the 64 features of the products. -/
def dotQK (q k : Arr) (b : Fin 32) (r j : Fin 2048) : EReal :=
  ∑ d : Fin 64, q (ix3 b r d) * k (ix3 b j d)

/-- The masked, scaled score of key position `j` for query row `(b, r)`. -/
def logit (q k : Arr) (vl : Lens) (b : Fin 32) (r j : Fin 2048) : EReal :=
  Scalar.select (IntOp.cmpi .slt (BitVec.ofNat 32 j.val) (vl (ix1 b))) (dotQK q k b r j * scale) fill

/-- The row's maximum logit, from -infinity. -/
def rowMax (q k : Arr) (vl : Lens) (b : Fin 32) (r : Fin 2048) : EReal :=
  max negInf ((Finset.univ : Finset (Fin 2048)).fold max negInf (fun j => logit q k vl b r j))

/-- The exponential of a logit less its row's maximum. -/
def ex (q k : Arr) (vl : Lens) (b : Fin 32) (r j : Fin 2048) : EReal :=
  Ideal.exp (logit q k vl b r j - rowMax q k vl b r)

/-- The row's sum of exponentials. -/
def den (q k : Arr) (vl : Lens) (b : Fin 32) (r : Fin 2048) : EReal :=
  ∑ j : Fin 2048, ex q k vl b r j

/-- The softmax weight of key position `j` in row `(b, r)`. -/
def prob (q k : Arr) (vl : Lens) (b : Fin 32) (r j : Fin 2048) : EReal :=
  Ideal.div (ex q k vl b r j) (den q k vl b r)

/-- The attention output at batch `b`, row `r`, feature `d`. -/
def outAt (q k v : Arr) (vl : Lens) (b : Fin 32) (r : Fin 2048) (d : Fin 64) : EReal :=
  ∑ j : Fin 2048, prob q k vl b r j * v (ix3 b j d)

/-- The whole output array. -/
def out (q k v : Arr) (vl : Lens) : Arr := fun i => outAt q k v vl (i 0) (i 1) (i 2)

/-- The literal 64.0 denotes the real 64. -/
theorem ofBits_64 : Ideal.ofBits .f32 0x42800000#32 = ((64 : ℝ) : EReal) := by
  simp [Ideal.ofBits, Ideal.ieee, -EReal.coe_mul]; norm_num

/-- The literal 0.125 denotes the real 1/8. -/
theorem scale_eq : scale = (((1 / 8 : ℝ)) : EReal) := by
  unfold scale
  simp [Ideal.ofBits, Ideal.ieee, -EReal.coe_mul]; norm_num

/-- The square root of 64 is 8. -/
theorem sqrt_64 : Ideal.sqrt (Ideal.ofBits .f32 0x42800000#32) = ((8 : ℝ) : EReal) := by
  rw [ofBits_64, Ideal.sqrt_coe, if_neg (by norm_num)]
  congr 1
  rw [show (64 : ℝ) = 8 ^ 2 by norm_num, Real.sqrt_sq (by norm_num)]

/-- Dividing by the square root of 64 is multiplying by 0.125, on every extended real. -/
theorem div_sqrt64 (x : EReal) : Ideal.div x (Ideal.sqrt (Ideal.ofBits .f32 0x42800000#32)) = x * scale := by
  rw [sqrt_64, Ideal.div_coe (by norm_num : (8 : ℝ) ≠ 0), scale_eq]

end Cert.Attention

end
-- ==== Proof.KernelRow.lean ====
/-
  One grid point of the kernel computes 512 rows of the attention function of `Attention.lean`.

  The body's arithmetic is one pure term of the valid-length word `w` and of the three blocks it loads: `x0`, 512 query
  rows of one batch, and `x1`, `x2`, all 2048 key and value rows of that batch. The stages below name that term's parts:
  `qk` (the 512 x 2048 inner products, a matrix product contracting the 64 features of both operands), `lg` (times
  0.125, then the fill value where the key position is not below `w`), `mx` (each row's maximum from -infinity), `ev`
  (the exponential of the difference), `sm` (each row's sum), `pr` (the quotient), and the product of `pr` with the
  value rows. Read at a row `r` and a key position `j` each stage is the corresponding function of `Attention.lean`
  at batch `b` and row `R r`, when the blocks are the rows `R r` of query batch `b`, the key and value rows of batch
  `b`, and `w` is the batch's valid length (`pay_at`).
-/
import proofs.«422287_j81389630259486_1_alg».proof.Proof.Gen.KernelIdeal.Skeleton
import proofs.«422287_j81389630259486_1_alg».proof.Proof.Attention
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Row

open Cert.KernelIdeal Cert.KernelIdeal.Gen
open Idealize.ShloMosaic Idealize.ShloMosaic.ValueIdx
open Cert.Attention

/-! ## Layout: a column of row values spread over the row -/

/-- A vector of 512 row values, cast to a column and broadcast along the 2048 key positions, reads the row's value. -/
theorem column_apply {α : Type} (v : S512.Idx → α) (r : Fin 512) (j : Fin 2048) :
    broadcastTo S512x2048 (shapeCast S512x1 v shapeCasts_S512_S512x1) broadcasts_S512x1_S512x2048 (ix2 r j) = v (ix1 r) := by
  rw [broadcastTo_apply _ broadcasts_S512x1_S512x2048 (ix2 r j) (ix2 r (0 : Fin 1)) (fun a => match a with
    | ⟨0, _⟩ => by show r.val = if (512 : Nat) = 1 then 0 else r.val; rw [if_neg (by decide)]
    | ⟨1, _⟩ => by show 0 = if (1 : Nat) = 1 then 0 else j.val; rw [if_pos rfl])]
  exact shapeCast_apply v shapeCasts_S512_S512x1 _ _ (by
    rw [Shape.rowMajor_val_one, Shape.rowMajor_val_two]
    show r.val = r.val * 1 + 0
    omega)

/-- A row index `r` of the reduced shape with key position `k` put back is `(r, k)`. -/
theorem lift_row (r : Fin 512) (k : Fin (S512x2048.size 1)) :
    reduces_S512x2048_S512.lift (ix1 r) k = ix2 r (⟨k.val, k.isLt⟩ : Fin 2048) := by
  funext c; apply Fin.ext
  fin_cases c <;> rfl

/-! ## The two matrix products' operand indices -/

theorem lhs_qk_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_qk_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs_qk_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_qk_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

theorem lhs_pv_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_pv_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_pv_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_pv_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-! ## The body's term, stage by stage -/

/-- The 512 x 2048 inner products of the query block's rows with the key block's rows. -/
def qk (x0 : Vec Ideal S1x512x64 .f32) (x1 : Vec Ideal S1x2048x64 .f32) : FVec Ideal S512x2048 .f32 :=
  matmul dot_S512x64_S2048x64_S512x2048_1_1_0_0_n_n none
    (truncf .bf16 (shapeCast S512x64 x0 shapeCasts_S1x512x64_S512x64) bitsLt_bf16_f32)
    (truncf .bf16 (shapeCast S2048x64 x1 shapeCasts_S1x2048x64_S2048x64) bitsLt_bf16_f32)
    (constant (F := Ideal) S512x2048 .f32 0x00000000#32)

/-- Scaled, and filled where the key position is not below the valid length. -/
def lg (w : Elt Ideal .i32) (x0 : Vec Ideal S1x512x64 .f32) (x1 : Vec Ideal S1x2048x64 .f32) : FVec Ideal S512x2048 .f32 :=
  select (cmpi .slt (iota .tc S512x2048 32 [1] iota_S512x2048_d1_w32) (broadcast S512x2048 w))
    (mulf (qk x0 x1) (broadcast S512x2048 (Scalar.ofBits (F := Ideal) .f32 0x3E000000#32)))
    (broadcast S512x2048 (Scalar.ofBits (F := Ideal) .f32 0xC9742400#32))

/-- Each row's maximum, from -infinity. -/
def mx (w : Elt Ideal .i32) (x0 : Vec Ideal S1x512x64 .f32) (x1 : Vec Ideal S1x2048x64 .f32) : FVec Ideal S512 .f32 :=
  maximumf (broadcast S512 (Scalar.ofBits (F := Ideal) .f32 0xFF800000#32))
    (multiReduction (F := Ideal) .maximumf [1] S512 (lg w x0 x1) 0xFF800000#32 reduces_S512x2048_S512 (.inl rfl) rfl)

/-- The exponential of each entry less its row's maximum. -/
def ev (w : Elt Ideal .i32) (x0 : Vec Ideal S1x512x64 .f32) (x1 : Vec Ideal S1x2048x64 .f32) : FVec Ideal S512x2048 .f32 :=
  exp (subf (lg w x0 x1) (broadcastTo S512x2048 (shapeCast S512x1 (mx w x0 x1) shapeCasts_S512_S512x1) broadcasts_S512x1_S512x2048))

/-- Each row's sum of exponentials. -/
def sm (w : Elt Ideal .i32) (x0 : Vec Ideal S1x512x64 .f32) (x1 : Vec Ideal S1x2048x64 .f32) : FVec Ideal S512 .f32 :=
  multiReduction (F := Ideal) .add [1] S512 (ev w x0 x1) 0x00000000#32 reduces_S512x2048_S512 (.inl rfl) rfl

/-- The softmax weights. -/
def pr (w : Elt Ideal .i32) (x0 : Vec Ideal S1x512x64 .f32) (x1 : Vec Ideal S1x2048x64 .f32) : FVec Ideal S512x2048 .f32 :=
  divf (ev w x0 x1) (broadcastTo S512x2048 (shapeCast S512x1 (sm w x0 x1) shapeCasts_S512_S512x1) broadcasts_S512x1_S512x2048)

/-- The weights times the value rows. -/
def pv (w : Elt Ideal .i32) (x0 : Vec Ideal S1x512x64 .f32) (x1 x2 : Vec Ideal S1x2048x64 .f32) : FVec Ideal S512x64 .f32 :=
  matmul dot_S512x2048_S2048x64_S512x64_1_0_0_1_n_n none
    (truncf .bf16 (pr w x0 x1) bitsLt_bf16_f32)
    (truncf .bf16 (shapeCast S2048x64 x2 shapeCasts_S1x2048x64_S2048x64) bitsLt_bf16_f32)
    (constant (F := Ideal) S512x64 .f32 0x00000000#32)

/-- The stored value is the last stage with a leading unit axis. -/
theorem pay_eq (w : Elt Ideal .i32) (x0 : Vec Ideal S1x512x64 .f32) (x1 x2 : Vec Ideal S1x2048x64 .f32) :
    k0_pay1 (F := Ideal) w x0 x1 x2 = shapeCast S1x512x64 (pv w x0 x1 x2) shapeCasts_S512x64_S1x512x64 := rfl

/-! ## The stages at an index, for the blocks of batch `b` and rows `R` -/

section AtIndex

variable (q k v : Arr) (vl : Lens) (b : Fin 32) (R : Fin 512 → Fin 2048)
variable (w : Elt Ideal .i32) (x0 : Vec Ideal S1x512x64 .f32) (x1 x2 : Vec Ideal S1x2048x64 .f32)
variable (hw : w = vl (ix1 b))
variable (h0 : ∀ (r : Fin 512) (d : Fin 64), x0 (ix3 (0 : Fin 1) r d) = q (ix3 b (R r) d))
variable (h1 : ∀ (j : Fin 2048) (d : Fin 64), x1 (ix3 (0 : Fin 1) j d) = k (ix3 b j d))
variable (h2 : ∀ (j : Fin 2048) (d : Fin 64), x2 (ix3 (0 : Fin 1) j d) = v (ix3 b j d))

include h0 h1 in
theorem qk_at (r : Fin 512) (j : Fin 2048) : qk x0 x1 (ix2 r j) = dotQK q k b (R r) j := by
  unfold qk dotQK
  refine (Ideal.matmul_constant_zero_apply dot_S512x64_S2048x64_S512x2048_1_1_0_0_n_n none _ _ (ix2 r j)).trans ?_
  rw [← Equiv.sum_comp (contrEquiv1 dot_S512x64_S2048x64_S512x2048_1_1_0_0_n_n 64 rfl rfl).symm]
  refine Finset.sum_congr rfl fun d _ => ?_
  have hd := contrEquiv1_symm_val dot_S512x64_S2048x64_S512x2048_1_1_0_0_n_n 64 rfl rfl d
  have el : dot_S512x64_S2048x64_S512x2048_1_1_0_0_n_n.lhsIdx (ix2 r j) ((contrEquiv1 dot_S512x64_S2048x64_S512x2048_1_1_0_0_n_n 64 rfl rfl).symm d) = ix2 r d := funext fun a => Fin.ext (by
    match a with
    | ⟨0, _⟩ => exact lhs_qk_0 _ _
    | ⟨1, _⟩ => exact (lhs_qk_1 _ _).trans hd)
  have er : dot_S512x64_S2048x64_S512x2048_1_1_0_0_n_n.rhsIdx (ix2 r j) ((contrEquiv1 dot_S512x64_S2048x64_S512x2048_1_1_0_0_n_n 64 rfl rfl).symm d) = ix2 j d := funext fun a => Fin.ext (by
    match a with
    | ⟨0, _⟩ => exact rhs_qk_0 _ _
    | ⟨1, _⟩ => exact (rhs_qk_1 _ _).trans hd)
  rw [el, er, truncf_apply, truncf_apply, shapeCast_1ab_ab_apply, shapeCast_1ab_ab_apply, h0, h1]

include hw h0 h1 in
theorem lg_at (r : Fin 512) (j : Fin 2048) : lg w x0 x1 (ix2 r j) = logit q k vl b (R r) j := by
  unfold lg logit
  rw [select_apply, mulf_apply, qk_at q k b R x0 x1 h0 h1 r j]
  show Scalar.select (IntOp.cmpi .slt (iota .tc S512x2048 32 [1] iota_S512x2048_d1_w32 (ix2 r j)) w) _ _ = _
  rw [iota_single_apply, hw]
  rfl

include hw h0 h1 in
theorem mx_at (r : Fin 512) : mx w x0 x1 (ix1 r) = rowMax q k vl b (R r) := by
  unfold mx rowMax negInf
  rw [maximumf_apply]
  show max (Ideal.ofBits .f32 0xFF800000#32) _ = max (Ideal.ofBits .f32 0xFF800000#32) _
  refine congrArg (max (Ideal.ofBits .f32 0xFF800000#32)) ?_
  refine (Ideal.multiReduction_maximumf_single (lg w x0 x1) 0xFF800000#32 reduces_S512x2048_S512 (.inl rfl) rfl (ix1 r)).trans ?_
  have hf : (lg w x0 x1 ∘ reduces_S512x2048_S512.lift (ix1 r)) = fun j : Fin 2048 => logit q k vl b (R r) j :=
    funext fun kk => by rw [Function.comp, lift_row, lg_at q k vl b R w x0 x1 hw h0 h1]; rfl
  exact congrArg (fun f => Finset.fold max (Ideal.ofBits .f32 0xFF800000#32) f (Finset.univ : Finset (Fin 2048))) hf

include hw h0 h1 in
theorem ev_at (r : Fin 512) (j : Fin 2048) : ev w x0 x1 (ix2 r j) = ex q k vl b (R r) j := by
  unfold ev ex
  show Ideal.exp (subf (lg w x0 x1) _ (ix2 r j)) = _
  rw [subf_apply, column_apply, lg_at q k vl b R w x0 x1 hw h0 h1, mx_at q k vl b R w x0 x1 hw h0 h1]

include hw h0 h1 in
theorem sm_at (r : Fin 512) : sm w x0 x1 (ix1 r) = den q k vl b (R r) := by
  unfold sm den
  refine (Ideal.multiReduction_add_single (ev w x0 x1) 0x00000000#32 reduces_S512x2048_S512 (.inl rfl) rfl (ix1 r)).trans ?_
  refine Finset.sum_congr rfl fun kk _ => ?_
  rw [lift_row, ev_at q k vl b R w x0 x1 hw h0 h1]
  rfl

include hw h0 h1 in
theorem pr_at (r : Fin 512) (j : Fin 2048) : pr w x0 x1 (ix2 r j) = prob q k vl b (R r) j := by
  unfold pr prob
  rw [divf_apply, column_apply, ev_at q k vl b R w x0 x1 hw h0 h1, sm_at q k vl b R w x0 x1 hw h0 h1]

include hw h0 h1 h2 in
theorem pv_at (r : Fin 512) (d : Fin 64) : pv w x0 x1 x2 (ix2 r d) = outAt q k v vl b (R r) d := by
  unfold pv outAt
  refine (Ideal.matmul_constant_zero_apply dot_S512x2048_S2048x64_S512x64_1_0_0_1_n_n none _ _ (ix2 r d)).trans ?_
  rw [← Equiv.sum_comp (contrEquiv1 dot_S512x2048_S2048x64_S512x64_1_0_0_1_n_n 2048 rfl rfl).symm]
  refine Finset.sum_congr rfl fun j _ => ?_
  have hj := contrEquiv1_symm_val dot_S512x2048_S2048x64_S512x64_1_0_0_1_n_n 2048 rfl rfl j
  have el : dot_S512x2048_S2048x64_S512x64_1_0_0_1_n_n.lhsIdx (ix2 r d) ((contrEquiv1 dot_S512x2048_S2048x64_S512x64_1_0_0_1_n_n 2048 rfl rfl).symm j) = ix2 r j := funext fun a => Fin.ext (by
    match a with
    | ⟨0, _⟩ => exact lhs_pv_0 _ _
    | ⟨1, _⟩ => exact (lhs_pv_1 _ _).trans hj)
  have er : dot_S512x2048_S2048x64_S512x64_1_0_0_1_n_n.rhsIdx (ix2 r d) ((contrEquiv1 dot_S512x2048_S2048x64_S512x64_1_0_0_1_n_n 2048 rfl rfl).symm j) = ix2 j d := funext fun a => Fin.ext (by
    match a with
    | ⟨0, _⟩ => exact (rhs_pv_0 _ _).trans hj
    | ⟨1, _⟩ => exact rhs_pv_1 _ _)
  rw [el, er, truncf_apply, truncf_apply, shapeCast_1ab_ab_apply, h2, pr_at q k vl b R w x0 x1 hw h0 h1]

include hw h0 h1 h2 in
/-- The stored block at row `r` and feature `d` is the attention output of batch `b` at row `R r`. -/
theorem pay_at (u : Fin 1) (r : Fin 512) (d : Fin 64) :
    k0_pay1 (F := Ideal) w x0 x1 x2 (ix3 u r d) = outAt q k v vl b (R r) d := by
  rw [pay_eq, shapeCast_ab_1ab_apply, pv_at q k v vl b R w x0 x1 x2 hw h0 h1 h2]

end AtIndex

end Cert.KernelIdeal.Row

end
-- ==== Proof.KernelBlock.lean ====
/-
  The kernel's result array is the attention function of `Attention.lean` of its four argument arrays.

  The grid has 32 x 4 points. At point `(b, s)` the pipeline stages rows `512 s … 512 s + 511` of query batch `b`
  (a `[1, 512, 64]` block), all of key batch `b` and value batch `b` (`[1, 2048, 64]` blocks), and the body reads
  word `b` of the table of valid lengths. It stores ONE block, the payload of `KernelRow.lean`, which the pipeline
  writes back to rows `512 s … 512 s + 511` of batch `b` of the result. So what point `(b, s)` writes back is the
  attention function read through that block (`flushed_eq`); the 128 blocks tile the result array (`covered`); and the
  array ends holding the attention function (`final_out`, `run`).
-/
import proofs.«422287_j81389630259486_1_alg».proof.Proof.Gen.KernelIdeal.Frame
import proofs.«422287_j81389630259486_1_alg».proof.Proof.KernelRow
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.Block

open Cert.KernelIdeal Cert.KernelIdeal.Gen Idealize.ShloMosaic.ValueIdx Cert.Attention

variable (m : (ℓ : Loc nD τ sig) → Buf (Elt Ideal) ℓ) (ρ : Dev nD → PrngReg)

theorem hz3 : (![0, 0, 0] : Fin 3 → Nat) = fun _ => 0 := funext fun a => by fin_cases a <;> rfl

/-! ## The index maps in closed form, decided over the grid -/

/-- The query and result windows' block index at `(b, s)` is `(b, s, 0)`; the key and value windows' is `(b, 0, 0)`. -/
theorem maps : ∀ i : grid0.Coords,
    (cc0_transform_0 i 0 = (i 0).val ∧ cc0_transform_0 i 1 = (i 1).val ∧ cc0_transform_0 i 2 = 0)
    ∧ (cc0_transform_1 i 0 = (i 0).val ∧ cc0_transform_1 i 1 = 0 ∧ cc0_transform_1 i 2 = 0)
    ∧ (cc0_transform_2 i 0 = (i 0).val ∧ cc0_transform_2 i 1 = 0 ∧ cc0_transform_2 i 2 = 0)
    ∧ (cc0_transform_3 i 0 = (i 0).val ∧ cc0_transform_3 i 1 = (i 1).val ∧ cc0_transform_3 i 2 = 0) := by
  decide +kernel

/-- Every pair `(b, s)` is the coordinates of some grid point. -/
theorem onto : ∀ (b : Fin 32) (s : Fin 4), ∃ t : Fin grid0.N, (grid0.coords t 0).val = b.val ∧ (grid0.coords t 1).val = s.val := by
  decide +kernel

/-- The batch of a grid point. -/
abbrev batchOf (i : grid0.Coords) : Fin 32 := ⟨(i 0).val, (i 0).isLt⟩

/-- Row `r` of the point's query block is row `512 s + r` of the batch. -/
def rowOf (i : grid0.Coords) (r : Fin 512) : Fin 2048 :=
  ⟨(i 1).val * 512 + r.val, by have h1 : (i 1).val < 4 := (i 1).isLt; have := r.isLt; omega⟩

/-! ## The valid-length word the body reads -/

/-- The word the body loads from the table: the table read at offset `b`. -/
def lenWord (c : Dev nD) (i : grid0.Coords) (xt0 : TbBuf0 (F := Ideal) c tbM0_0) : Elt Ideal .i32 :=
  tbM0_0.view.readAt (Elt Ideal) (Rect.unit (s := S32) (k0_off1 i) S1.size (k0_off1_inb i)).toLoadRect xt0
    (Shape.Idx.first (by decide : 0 < S1.numel))

/-- A unit rectangle's one index at offset `b` of the table is index `b`. -/
theorem lenIdx (i : grid0.Coords) (h1 : 0 < S1.numel) :
    (Rect.unit (s := S32) (k0_off1 i) S1.size (k0_off1_inb i)).idx (Shape.Idx.first h1) = ix1 (batchOf i) := by
  funext a
  apply Fin.ext
  fin_cases a
  show k0_off1 i 0 + 1 * (Shape.Idx.first h1 (0 : Fin 1)).val = (i 0).val
  have h0 : (Shape.Idx.first h1 (0 : Fin 1)).val = 0 := by
    have := (Shape.Idx.first h1 (0 : Fin 1)).isLt
    have e : S1.size (0 : Fin 1) = 1 := by decide
    omega
  rw [h0, k0_off1_eq i]
  show (i 0).val + 1 * 0 = (i 0).val
  omega

/-- The word is the table's entry of the point's batch. -/
theorem lenWord_eq (c : Dev nD) (i : grid0.Coords) (xt0 : TbBuf0 (F := Ideal) c tbM0_0) :
    lenWord c i xt0 = (xt0 : S32.Idx → Elt Ideal .i32) (ix1 (batchOf i)) :=
  congrArg (xt0 : S32.Idx → Elt Ideal .i32) (lenIdx i _)

/-! ## What the body leaves in the result's staging buffer -/

/-- The run's one store, read back: the payload of the loaded word and blocks. -/
theorem out_piece (c : Dev nD) (i : grid0.Coords) (arg3 : Memref sig .tc .vmem S1x512x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x512x64 .f32) (harg6 : arg6.IsWhole)
    (x0 : Vec Ideal S1x512x64 .f32) (x1 : Vec Ideal S1x2048x64 .f32) (x2 : Vec Ideal S1x2048x64 .f32) (xt0 : TbBuf0 (F := Ideal) c tbM0_0) :
    out0_A_3 (F := Ideal) c i arg3 harg3 arg4 harg4 arg5 harg5 arg6 harg6 x0 x1 x2 xt0 = k0_pay1 (F := Ideal) (lenWord c i xt0) x0 x1 x2 := by
  unfold out0_A_3
  rw [View.read_writes_eq_canon _ _ _ (cover0_A_3 c i arg3 harg3 arg4 harg4 arg5 harg5 arg6 harg6 x0 x1 x2 xt0)]
  unfold kernelRun0_A
  dsimp only
  sl_unfold_words
  rw [View.canon_unit_zero (S := S1x512x64) hz3]
  simp only [View.readAt_eq_ld, harg3.read_unread, harg4.read_unread, harg5.read_unread, View.ld_unit_zero (S := S1x512x64) hz3, View.ld_unit_zero (S := S1x2048x64) hz3]
  rfl

/-! ## The input blocks as rows of the argument arrays -/

/-- The query block at a point: rows `512 s + r` of batch `b`. -/
theorem qblk_apply (hO : Ok m) (c : Dev nD) (t : Fin (cfgM m hO).N) (r : Fin 512) (d : Fin 64) :
    (iblk m hO c 0 t : Vec Ideal S1x512x64 .f32) (ix3 (0 : Fin 1) r d)
      = (V m c main_arg0 : Arr) (ix3 (batchOf (grid0.coords t)) (rowOf (grid0.coords t) r) d) := by
  obtain ⟨⟨e0, e1, e2⟩, -, -, -⟩ := maps (grid0.coords t)
  show V m c main_arg0 ((((cfgM m hO).win 0).blk t).view.emb (ix3 (0 : Fin 1) r d)) = V m c main_arg0 _
  refine congrArg (V m c main_arg0) (funext fun a => Fin.ext ?_)
  match a with
  | ⟨0, _⟩ => show cc0_transform_0 (grid0.coords t) 0 * 1 + 1 * 0 = (grid0.coords t 0).val; rw [e0]; omega
  | ⟨1, _⟩ => show cc0_transform_0 (grid0.coords t) 1 * 512 + 1 * r.val = (grid0.coords t 1).val * 512 + r.val; rw [e1]; omega
  | ⟨2, _⟩ => show cc0_transform_0 (grid0.coords t) 2 * 64 + 1 * d.val = d.val; rw [e2]; omega

/-- The key block at a point: all rows of batch `b`. -/
theorem kblk_apply (hO : Ok m) (c : Dev nD) (t : Fin (cfgM m hO).N) (j : Fin 2048) (d : Fin 64) :
    (iblk m hO c 1 t : Vec Ideal S1x2048x64 .f32) (ix3 (0 : Fin 1) j d)
      = (V m c main_arg1 : Arr) (ix3 (batchOf (grid0.coords t)) j d) := by
  obtain ⟨-, ⟨e0, e1, e2⟩, -, -⟩ := maps (grid0.coords t)
  show V m c main_arg1 ((((cfgM m hO).win 1).blk t).view.emb (ix3 (0 : Fin 1) j d)) = V m c main_arg1 _
  refine congrArg (V m c main_arg1) (funext fun a => Fin.ext ?_)
  match a with
  | ⟨0, _⟩ => show cc0_transform_1 (grid0.coords t) 0 * 1 + 1 * 0 = (grid0.coords t 0).val; rw [e0]; omega
  | ⟨1, _⟩ => show cc0_transform_1 (grid0.coords t) 1 * 2048 + 1 * j.val = j.val; rw [e1]; omega
  | ⟨2, _⟩ => show cc0_transform_1 (grid0.coords t) 2 * 64 + 1 * d.val = d.val; rw [e2]; omega

/-- The value block at a point: all rows of batch `b`. -/
theorem vblk_apply (hO : Ok m) (c : Dev nD) (t : Fin (cfgM m hO).N) (j : Fin 2048) (d : Fin 64) :
    (iblk m hO c 2 t : Vec Ideal S1x2048x64 .f32) (ix3 (0 : Fin 1) j d)
      = (V m c main_arg2 : Arr) (ix3 (batchOf (grid0.coords t)) j d) := by
  obtain ⟨-, -, ⟨e0, e1, e2⟩, -⟩ := maps (grid0.coords t)
  show V m c main_arg2 ((((cfgM m hO).win 2).blk t).view.emb (ix3 (0 : Fin 1) j d)) = V m c main_arg2 _
  refine congrArg (V m c main_arg2) (funext fun a => Fin.ext ?_)
  match a with
  | ⟨0, _⟩ => show cc0_transform_2 (grid0.coords t) 0 * 1 + 1 * 0 = (grid0.coords t 0).val; rw [e0]; omega
  | ⟨1, _⟩ => show cc0_transform_2 (grid0.coords t) 1 * 2048 + 1 * j.val = j.val; rw [e1]; omega
  | ⟨2, _⟩ => show cc0_transform_2 (grid0.coords t) 2 * 64 + 1 * d.val = d.val; rw [e2]; omega

/-- The word the body reads at a point is the valid length of the point's batch. -/
theorem word_apply (c : Dev nD) (i : grid0.Coords) :
    lenWord c i (tbl m 0) = (V m c main_arg3 : Lens) (ix1 (batchOf i)) := by
  exact (lenWord_eq c i (tbl m 0)).trans (congrFun (V_pre m c 0).symm (ix1 (batchOf i)))

/-! ## One grid point -/

/-- The attention function of the argument arrays as the region finds them. -/
abbrev attn (c : Dev nD) : Arr := out (V m c main_arg0) (V m c main_arg1) (V m c main_arg2) (V m c main_arg3)

/-- The payload at a point, read at an index of the block, is the attention function at the block's place in the array. -/
theorem point_eq (hO : Ok m) (c : Dev nD) (t : Fin (cfgM m hO).N) (y : S1x512x64.Idx) :
    k0_pay1 (F := Ideal) (lenWord c (grid0.coords t) (tbl m 0)) (iblk m hO c 0 t) (iblk m hO c 1 t) (iblk m hO c 2 t) y
      = attn m c (ix3 (batchOf (grid0.coords t)) (rowOf (grid0.coords t) (y 1)) (y 2)) := by
  obtain ⟨u, r, d, rfl⟩ : ∃ (u : Fin 1) (r : Fin 512) (d : Fin 64), y = ix3 u r d := ⟨y 0, y 1, y 2, eq_ix3 y⟩
  exact Row.pay_at (V m c main_arg0) (V m c main_arg1) (V m c main_arg2) (V m c main_arg3) (batchOf (grid0.coords t)) (rowOf (grid0.coords t))
    (lenWord c (grid0.coords t) (tbl m 0)) (iblk m hO c 0 t) (iblk m hO c 1 t) (iblk m hO c 2 t)
    (word_apply m c (grid0.coords t)) (qblk_apply m hO c t) (kblk_apply m hO c t) (vblk_apply m hO c t) u r d

/-- An index of the point's block sits in the result array at batch `b`, row `512 s + r`, the same feature. -/
theorem emb_out (hO : Ok m) (c : Dev nD) (t : Fin (cfgM m hO).N) (y : S1x512x64.Idx) :
    (ix3 (batchOf (grid0.coords t)) (rowOf (grid0.coords t) (y 1)) (y 2) : S32x2048x64.Idx)
      = (((cfgM m hO).win 3).blk t).view.emb y := by
  obtain ⟨-, -, -, ⟨e0, e1, e2⟩⟩ := maps (grid0.coords t)
  have hy0 : (y 0).val < 1 := (y 0).isLt
  refine funext fun a => Fin.ext ?_
  match a with
  | ⟨0, _⟩ => show (grid0.coords t 0).val = cc0_transform_3 (grid0.coords t) 0 * 1 + 1 * (y 0).val; rw [e0]; omega
  | ⟨1, _⟩ => show (grid0.coords t 1).val * 512 + (y 1).val = cc0_transform_3 (grid0.coords t) 1 * 512 + 1 * (y 1).val; rw [e1]; omega
  | ⟨2, _⟩ => show (y 2).val = cc0_transform_3 (grid0.coords t) 2 * 64 + 1 * (y 2).val; rw [e2]; omega

/-- WHAT POINT `t` WRITES BACK is block `t` of the attention function. -/
theorem flushed_eq (hO : Ok m) (c : Dev nD) (t : Fin (cfgM m hO).N) :
    (dats m hO 0 c).flushed 3 t = (((cfgM m hO).win 3).blk t).view.read (Elt Ideal) (attn m c) := by
  show ((cfgM m hO).win 3).cut (grid0.coords t) ((dats m hO 0 c).after 3 t) = _
  rw [after0_3]
  unfold outsAt0
  have hp := out_piece c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) (tbl m 0)
  funext y
  exact ((congrFun hp y).trans (point_eq m hO c t y)).trans (congrArg (attn m c) (emb_out m hO c t y))

/-! ## The blocks tile the result array -/

/-- An index of the array is in point `t`'s block iff each coordinate is in the block's range on its axis. -/
theorem mem_blk (hO : Ok m) (t : Fin (cfgM m hO).N) (i : S32x2048x64.Idx) :
    i ∈ (((cfgM m hO).win 3).blk t).view.set ↔ ∀ a : Fin 3, cc0_transform_3 (grid0.coords t) a * S1x512x64.size a ≤ (i a).val ∧ (i a).val < cc0_transform_3 (grid0.coords t) a * S1x512x64.size a + S1x512x64.size a := by
  have h := View.set_slice_whole main_v0 (((cfgM m hO).win 3).rect t)
  exact (Eq.to_iff (congrArg (fun S => i ∈ S) h)).trans Rect.mem_set_unit

/-- Every index of the result array is in some point's block: batch `b`, row tile `R / 512`. -/
theorem covered (hO : Ok m) (i : S32x2048x64.Idx) :
    ∃ t : Fin (cfgM m hO).N, ((cfgM m hO).win 3).flush t = true ∧ i ∈ (((cfgM m hO).win 3).blk t).view.set := by
  have hi0 : (i 0).val < 32 := (i 0).isLt
  have hi1 : (i 1).val < 2048 := (i 1).isLt
  have hi2 : (i 2).val < 64 := (i 2).isLt
  obtain ⟨t, ht0', ht1'⟩ := onto ⟨(i 0).val, hi0⟩ ⟨(i 1).val / 512, by omega⟩
  have ht0 : (grid0.coords t 0).val = (i 0).val := ht0'
  have ht1 : (grid0.coords t 1).val = (i 1).val / 512 := ht1'
  obtain ⟨-, -, -, ⟨e0, e1, e2⟩⟩ := maps (grid0.coords t)
  refine ⟨t, flush0_3 (adm m hO) t, ?_⟩
  rw [mem_blk]
  intro a
  match a with
  | ⟨0, _⟩ => show cc0_transform_3 (grid0.coords t) 0 * 1 ≤ (i 0).val ∧ (i 0).val < cc0_transform_3 (grid0.coords t) 0 * 1 + 1; rw [e0, ht0]; omega
  | ⟨1, _⟩ => show cc0_transform_3 (grid0.coords t) 1 * 512 ≤ (i 1).val ∧ (i 1).val < cc0_transform_3 (grid0.coords t) 1 * 512 + 512; rw [e1, ht1]; omega
  | ⟨2, _⟩ => show cc0_transform_3 (grid0.coords t) 2 * 64 ≤ (i 2).val ∧ (i 2).val < cc0_transform_3 (grid0.coords t) 2 * 64 + 64; rw [e2]; omega

/-- THE RESULT ARRAY after the run is the attention function of the argument arrays. -/
theorem final_out (hO : Ok m) (c : Dev nD) : (dats m hO 0 c).arrAt 3 (cfgM m hO).N = attn m c :=
  (dats m hO 0 c).arrAt_eq_of_cover 3 (attn m c) (fun t _ => flushed_eq m hO c t) (covered m hO)

/-! ## The run, read -/

/-- The frame run re-posted: the result array at the attention function of the arguments, the arguments unchanged. -/
theorem run (hO : Ok m) : θ_run defs (onTc (τ := τ) (main (F := Ideal))) ⟨m, fun _ => 0, ρ⟩ fun r => ∀ c : Dev nD,
      r.2.mem ((c.tc : Thread nD τ).loc main_v0)
        = out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 3).trans (final_out m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).2 main_arg3 (by decide : main_arg3 ∈ Pipeline.restRefs sig spec0)).trans (V_main_arg3 m c)⟩)
    (run_main m ρ hO)

end Cert.KernelIdeal.Block

end
-- ==== Proof.Reference.lean ====
/-
  The reference program computes the attention function of `Attention.lean`.

  Its result is a chain of stages, each read at one index from the stages before it: the batched inner products of
  query and key rows, divided by the square root of 64; the comparison of the key position with the batch's valid
  length, broadcast over the query rows; the select between the scaled product and the fill value; the row maximum
  (a fold of `max` from -infinity over the 2048 key positions); the exponential of the difference; the row sum
  (zero plus the sum over the key positions); the quotient; and the batched product with the value rows. Stage by
  stage these are `logit`, `rowMax`, `ex`, `den`, `prob` and `outAt`: the only step that is not a reading of
  indices is the division by the square root of 64, which is the multiplication by 0.125 (`div_sqrt64`).
-/
import proofs.«422287_j81389630259486_1_alg».proof.Proof.Gen.ReferenceIdeal.Run
import proofs.«422287_j81389630259486_1_alg».proof.Proof.Gen.ReferenceIdeal.Read
import proofs.«422287_j81389630259486_1_alg».proof.Proof.Attention

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx
open Cert.Attention

variable (x0 x1 x2 : (⟨S32x2048x64, .f32⟩ : BufTy).Contents (Elt Ideal)) (x3 : (⟨S32, .i32⟩ : BufTy).Contents (Elt Ideal))

/-! ## The stages' index maps at explicit coordinates -/

theorem lidx_scores (b : Fin 32) (r j : Fin 2048) (d : Fin 64) : lidx_main_v0 (ix3 b r j) d = ix3 b r d :=
  funext fun a => Fin.ext (by match a with | ⟨0, _⟩ => rfl | ⟨1, _⟩ => rfl | ⟨2, _⟩ => rfl)

theorem ridx_scores (b : Fin 32) (r j : Fin 2048) (d : Fin 64) : ridx_main_v0 (ix3 b r j) d = ix3 b j d :=
  funext fun a => Fin.ext (by match a with | ⟨0, _⟩ => rfl | ⟨1, _⟩ => rfl | ⟨2, _⟩ => rfl)

theorem idx_len (b : Fin 32) (r j : Fin 2048) : idx_main_v6 (idx_main_v8 (idx_main_call0_v1 (ix3 b r j))) = ix1 b :=
  funext fun a => Fin.ext (by match a with | ⟨0, _⟩ => rfl)

theorem idx_rowMax (b : Fin 32) (r j : Fin 2048) : idx_main_v14 (idx_main_v15 (ix3 b r j)) = ix2 b r :=
  funext fun a => Fin.ext (by match a with | ⟨0, _⟩ => rfl | ⟨1, _⟩ => rfl)

theorem idx_sum (b : Fin 32) (r : Fin 2048) (k : Fin 2048) : idx_main_v18 (ix2 b r) k = ix3 b r k :=
  funext fun a => Fin.ext (by match a with | ⟨0, _⟩ => rfl | ⟨1, _⟩ => rfl | ⟨2, _⟩ => rfl)

theorem idx_den (b : Fin 32) (r j : Fin 2048) : idx_main_v19 (idx_main_v20 (ix3 b r j)) = ix2 b r :=
  funext fun a => Fin.ext (by match a with | ⟨0, _⟩ => rfl | ⟨1, _⟩ => rfl)

theorem lidx_out (b : Fin 32) (r : Fin 2048) (d : Fin 64) (k : Fin 2048) : lidx_main_v22 (ix3 b r d) k = ix3 b r k :=
  funext fun a => Fin.ext (by match a with | ⟨0, _⟩ => rfl | ⟨1, _⟩ => rfl | ⟨2, _⟩ => rfl)

theorem ridx_out (b : Fin 32) (r : Fin 2048) (d : Fin 64) (k : Fin 2048) : ridx_main_v22 (ix3 b r d) k = ix3 b k d :=
  funext fun a => Fin.ext (by match a with | ⟨0, _⟩ => rfl | ⟨1, _⟩ => rfl | ⟨2, _⟩ => rfl)

/-- A reduced index `(b, r)` with key position `k` put back on the last axis is `(b, r, k)`. -/
theorem lift_row (h : S32x2048x2048.Reduces [2] S32x2048) (b : Fin 32) (r : Fin 2048) (k : Fin (S32x2048x2048.size 2)) :
    h.lift (ix2 b r) k = ix3 b r (⟨k.val, k.isLt⟩ : Fin 2048) := by
  funext c; apply Fin.ext
  fin_cases c <;> rfl

/-! ## The stages -/

/-- The masked, scaled score: the select of the scaled inner product and the fill value. -/
theorem logit_ref (b : Fin 32) (r j : Fin 2048) :
    val_main_v10 (F := Ideal) x0 x1 x3 (ix3 b r j) = logit x0 x1 x3 b r j := by
  rw [val_main_v10_apply, val_main_call0_v1_apply, val_main_v9_apply, val_main_v7_apply, val_main_v5_apply, val_main_v4_apply,
    val_main_v8_apply, val_main_v6_apply, val_main_v3_apply, val_main_v0_apply, val_main_v2_apply, val_main_v1_apply,
    val_main_cst_apply, val_main_call0_v2_apply, val_main_call0_v0_apply, val_main_cst_0_apply]
  simp only [lidx_scores, ridx_scores, idx_len, Ideal.hostDivf_def, Ideal.hostUnary_sqrt_def, Ideal.ofBits_def, div_sqrt64]
  rfl

/-- The row maximum: the fold of `max` from -infinity over the key positions, then `max` with -infinity. -/
theorem rowMax_ref (b : Fin 32) (r : Fin 2048) :
    val_main_v13 (F := Ideal) x0 x1 x3 (ix2 b r) = rowMax x0 x1 x3 b r := by
  rw [val_main_v13_apply, val_main_v12_apply, val_main_cst_2_apply]
  unfold val_main_v11
  rw [Host.reduce_eq_fold_single FloatOps.maximumf _ _ reducesTo_S32x2048x2048_S32x2048_d2 (by decide) h_S_]
  have hf : (val_main_v10 (F := Ideal) x0 x1 x3 ∘ (by decide : S32x2048x2048.Reduces [2] S32x2048).lift (ix2 b r))
      = fun j : Fin 2048 => logit x0 x1 x3 b r j :=
    funext fun k => by rw [Function.comp, lift_row, logit_ref]; rfl
  exact congrArg (fun f => max (Ideal.ofBits .f32 0xFF800000#32)
    (Finset.fold max (Ideal.ofBits .f32 0xFF800000#32) f (Finset.univ : Finset (Fin 2048)))) hf

/-- The exponential of a logit less its row's maximum. -/
theorem ex_ref (b : Fin 32) (r j : Fin 2048) :
    val_main_v17 (F := Ideal) x0 x1 x3 (ix3 b r j) = ex x0 x1 x3 b r j := by
  rw [val_main_v17_apply, val_main_v16_apply, logit_ref, val_main_v15_apply, val_main_v14_apply, idx_rowMax, rowMax_ref]
  rfl

/-- The row's sum of exponentials: zero plus the sum over the key positions. -/
theorem den_ref (b : Fin 32) (r : Fin 2048) :
    val_main_v18 (F := Ideal) x0 x1 x3 (ix2 b r) = den x0 x1 x3 b r := by
  rw [val_main_v18_apply, val_main_cst_3_apply]
  simp only [idx_sum, ex_ref, Ideal.ofBits_def, Ideal.ofBits_zero_f32, zero_add]
  rfl

/-- The softmax weight. -/
theorem prob_ref (b : Fin 32) (r j : Fin 2048) :
    val_main_v21 (F := Ideal) x0 x1 x3 (ix3 b r j) = prob x0 x1 x3 b r j := by
  rw [val_main_v21_apply, ex_ref, val_main_v20_apply, val_main_v19_apply, idx_den, den_ref]
  rfl

/-- The reference's result is the attention function of its four arguments. -/
theorem out_ref : val_main_v22 (F := Ideal) x0 x1 x2 x3 = out x0 x1 x2 x3 := by
  funext i
  obtain ⟨b, r, d, rfl⟩ : ∃ (b : Fin 32) (r : Fin 2048) (d : Fin 64), i = ix3 b r d := ⟨i 0, i 1, i 2, eq_ix3 i⟩
  rw [val_main_v22_apply]
  simp only [lidx_out, ridx_out, prob_ref]
  rfl

/-- The reference's run, with its result named by the attention function. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22)
        = out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((val_main_v22_eq m c).trans (out_ref _ _ _ _)), (h c).2⟩)
    (Cert.ReferenceIdeal.Value.run (F := Ideal) m ρ)

end Cert.ReferenceIdeal.RefValue

end
-- ==== Proof.lean ====
/-
  Masked dot-product attention: a Pallas kernel against its jnp reference, equal over the extended reals.

  For each of 32 batches both programs compute, for every query row, the softmax over the 2048 key positions of the
  scaled inner products of the query row with the key rows — a position at or beyond the batch's valid length takes
  the fill value -10^6 instead — and with those weights the weighted sum of the value rows (`Proof/Attention.lean`:
  `out`). The kernel does so one block of 512 query rows at a time, with the scale as the literal 0.125
  (`Proof/KernelRow.lean`: one block; `Proof/KernelBlock.lean`: the blocks tile the result array). The reference
  does so on whole arrays, dividing by the square root of 64 (`Proof/Reference.lean`). Operation by operation the
  two agree; the one law used is that dividing by the square root of 64 is multiplying by 0.125 on every extended
  real, so the precondition (finite inputs) is never opened.

  The frames: the kernels' are the generated frame certificates, whose side condition on the table of valid lengths
  is vacuous here (no index map reads the table); the reference's is its generated run with the result dropped.
  `preserves` has no conjunct: the idealization rewrote nothing.
-/
import proofs.«422287_j81389630259486_1_alg».proof.Defs
import proofs.«422287_j81389630259486_1_alg».proof.Proof.Gen.Kernel
import proofs.«422287_j81389630259486_1_alg».proof.Proof.Gen.Kernel.Skeleton
import proofs.«422287_j81389630259486_1_alg».proof.Proof.Gen.Kernel.Launch
import proofs.«422287_j81389630259486_1_alg».proof.Proof.Gen.Kernel.Points
import proofs.«422287_j81389630259486_1_alg».proof.Proof.Gen.Kernel.Frame
import proofs.«422287_j81389630259486_1_alg».proof.Proof.Gen.KernelIdeal
import proofs.«422287_j81389630259486_1_alg».proof.Proof.Gen.KernelIdeal.Skeleton
import proofs.«422287_j81389630259486_1_alg».proof.Proof.Gen.KernelIdeal.Launch
import proofs.«422287_j81389630259486_1_alg».proof.Proof.Gen.KernelIdeal.Points
import proofs.«422287_j81389630259486_1_alg».proof.Proof.Gen.KernelIdeal.Frame
import proofs.«422287_j81389630259486_1_alg».proof.Proof.Gen.ReferenceIdeal
import proofs.«422287_j81389630259486_1_alg».proof.Proof.Gen.ReferenceIdeal.Run
import proofs.«422287_j81389630259486_1_alg».proof.Proof.Gen.Pre_finite_inputs
import proofs.«422287_j81389630259486_1_alg».proof.Proof.KernelBlock
import proofs.«422287_j81389630259486_1_alg».proof.Proof.Reference
import Idealize.ShloMosaic.Adequacy
import Idealize.ShloMosaic.Init

noncomputable section

namespace Cert.Proof

open Idealize.ShloMosaic Idealize.SL.Sem

/-- No index map of the kernel reads the table of valid lengths: the pipeline's side condition on it is `True`. -/
theorem ok_Kernel (m : (ℓ : Loc Cert.Kernel.nD Cert.Kernel.τ Cert.Kernel.sig) → Buf (Elt Bits) ℓ) : Cert.Kernel.Gen.Ok m := trivial

theorem ok_KernelIdeal (m : (ℓ : Loc Cert.KernelIdeal.nD Cert.KernelIdeal.τ Cert.KernelIdeal.sig) → Buf (Elt Ideal) ℓ) : Cert.KernelIdeal.Gen.Ok m := trivial

theorem frame_k : Cert.frame_Kernel (hKernel := Cert.Kernel.Gen.facts) (hPre_finite_inputs := Cert.Pre_finite_inputs.Gen.facts) :=
  fun m ρ _ => Cert.Kernel.Gen.frame m ρ (ok_Kernel m)

theorem frame_ki : Cert.frame_KernelIdeal (hKernelIdeal := Cert.KernelIdeal.Gen.facts) (hPre_finite_inputs := Cert.Pre_finite_inputs.Gen.facts) :=
  fun m ρ _ => Cert.KernelIdeal.Gen.frame m ρ (ok_KernelIdeal m)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both result arrays end at the attention function of arguments that agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.KernelIdeal.Block.run m ρ (ok_KernelIdeal m), ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
